-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S1600000 32) (main_arg1 : IVec S1600000 32) (main_arg2 : FVec F S1600000 .f32) (main_arg3 : FVec F S100000x64 .f32) (main_arg4 : FVec F S64x64 .f32) (main_arg5 : FVec F S64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S2000x64 : Shape := ⟨2, ![2000, 64]⟩
abbrev S1600000x64 : Shape := ⟨2, ![1600000, 64]⟩
abbrev S20000x1 : Shape := ⟨2, ![20000, 1]⟩
abbrev S20000x64 : Shape := ⟨2, ![20000, 64]⟩

abbrev nBuf : Space → Nat
  | .hbm => 56
  | .vmem => 12
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S20000x1, .f32⟩
  | .local _ .vmem, ⟨7, _⟩ => ⟨S20000x1, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S1600000_S1600000x1 : S1600000.ShapeCasts S1600000x1
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S20000x1_S20000x64 : S20000x1.Broadcasts S20000x64
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x1.size a ≤ S1600000x1.size a
  hwx1_0 : ∀ i : grid1.Coords, EltTy.bits .f32 = 32 ∨ (Rect.block (s := S1600000x1) S20000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S1600000x64.size a
  hwx1_1 : ∀ i : grid1.Coords, EltTy.bits .f32 = 32 ∨ (Rect.block (s := S1600000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1600000x64.size a
  hwx1_2 : ∀ i : grid1.Coords, EltTy.bits .f32 = 32 ∨ (Rect.block (s := S1600000x64) S20000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg3) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S20000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S1600000x64 : Shape := ⟨2, ![1600000, 64]⟩

abbrev nBuf : Space → Nat
  | .hbm => 59
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The two dense stages of the graph-convolution layer as whole-array functions on the extended reals, stated over
  literal shapes so that either program's arrays fit them: the affine map x·W + b on a [100000, 64] array of node
  features (b a one-row array laid along every row), and the scaling of every row of an [1600000, 64] array of
  gathered edge features by that edge's coefficient (a one-column array).
-/
import Idealize.ShloMosaic.PureOps.Ideal
import Idealize.ShloMosaic.Lib.ValueIdx

noncomputable section

namespace Cert.Spec

open Idealize.ShloMosaic Idealize.ShloMosaic.ValueIdx

/-- A rank-2 array of extended reals with `r` rows and `c` columns. -/
abbrev Mat (r c : Nat) : Type := (⟨2, ![r, c]⟩ : Shape).Idx → EReal

/-- Entry (p, q) of x·W + b: the sum over k of x[p, k]·W[k, q], plus b[0, q]. -/
def affine (x : Mat 100000 64) (w : Mat 64 64) (b : Mat 1 64) : Mat 100000 64 :=
  fun i => (∑ k : Fin 64, x (ix2 (i 0) k) * w (ix2 k (i 1))) + b (ix2 0 (i 1))

theorem affine_apply (x : Mat 100000 64) (w : Mat 64 64) (b : Mat 1 64) (p : Fin 100000) (q : Fin 64) :
    affine x w b (ix2 p q) = (∑ k : Fin 64, x (ix2 p k) * w (ix2 k q)) + b (ix2 0 q) := rfl

/-- Entry (e, j) of the row-scaled array: n[e, 0]·g[e, j]. -/
def rowScale (n : Mat 1600000 1) (g : Mat 1600000 64) : Mat 1600000 64 :=
  fun i => n (ix2 (i 0) 0) * g i

theorem rowScale_apply (n : Mat 1600000 1) (g : Mat 1600000 64) (e : Fin 1600000) (j : Fin 64) :
    rowScale n g (ix2 e j) = n (ix2 e 0) * g (ix2 e j) := rfl

end Cert.Spec

end
-- ==== Proof.SupportRegion.lean ====
import proofs.«149163_j32229434589218_1_alg».proof.Proof.Gen.KernelIdeal.Frame
import proofs.«149163_j32229434589218_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SupportRegion

open Cert.KernelIdeal Cert.KernelIdeal.Gen Idealize.ShloMosaic Idealize.ShloMosaic.TcCoe Idealize.ShloMosaic.ValueIdx Idealize.SL.Sem

/-! ## The product's operand indices

At an output index `i` and a contraction index `q` the left operand is read at row `i 0`, column `q`, and the right
operand at row `q`, column `i 1`: one lemma per operand axis. -/

theorem lhs_support_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_support_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_support_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_support_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product into a zero accumulator, at entry (p, q): the sum over k of x[p, k]·w[k, q]. -/
theorem product_apply (x : FVec Ideal S2000x64 .bf16) (w : FVec Ideal S64x64 .bf16) (p : Fin 2000) (q : Fin 64) :
    matmul dot_S2000x64_S64x64_S2000x64_1_0_0_1_n_n none x w (constant (F := Ideal) S2000x64 .f32 0x00000000#32) (ix2 p q)
      = ∑ k : Fin 64, x (ix2 p k) * w (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_support_0 _ _
    | ⟨1, _⟩ => exact (lhs_support_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_support_0 _ _).trans hk
    | ⟨1, _⟩ => exact rhs_support_1 _ _)
  rw [el, er]

/-- The body's payload at entry (p, q) of its block: the sum over k of x[p, k]·w[k, q], plus b[0, q]. -/
theorem payload_apply (x : Vec Ideal S2000x64 .f32) (w : Vec Ideal S64x64 .f32) (b : Vec Ideal S1x64 .f32) (p : Fin 2000) (q : Fin 64) :
    k0_pay1 (F := Ideal) x w b (ix2 p q) = (∑ k : Fin 64, x (ix2 p k) * w (ix2 k q)) + b (ix2 0 q) := by
  unfold k0_pay1
  show matmul dot_S2000x64_S64x64_S2000x64_1_0_0_1_n_n none (truncf .bf16 x bitsLt_bf16_f32) (truncf .bf16 w bitsLt_bf16_f32) (constant (F := Ideal) S2000x64 .f32 0x00000000#32) (ix2 p q)
      + broadcastTo S2000x64 (shapeCast S1x64 b shapeCasts_S1x64_S1x64) broadcasts_S1x64_S2000x64 (ix2 p q) = _
  rw [product_apply, shapeCast_self, broadcastTo_1b_ab_apply]
  rfl

/-! ## From blocks to the array

Point `t` of the grid reads rows `2000 t … 2000 t + 1999` of x, all of W and b, and writes the same rows of the
output; the 50 points' row ranges fill the 100000 rows. -/

theorem zero_offsets : (![0, 0] : Fin 2 → Nat) = fun _ => 0 := funext fun a => by fin_cases a <;> rfl

/-- The index maps, decided over the grid: the x window and the output window sit at block (t, 0), the W and b
    windows at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `2000 t + p` of the array. -/
abbrev rowAt (t : Fin cfg0.N) (p : Fin 2000) : Fin 100000 :=
  ⟨t.val * 2000 + p.val, by have ht : t.val < 50 := t.isLt; have hp := p.isLt; omega⟩

/-- Entry (p, k) of the x window's block at point `t` is entry (2000 t + p, k) of x. -/
theorem xblock_apply (V : (c : Dev nD) → (b : Ref sig .tc) → Buf (Elt Ideal) ((c : Thread nD τ).loc b)) (c : Dev nD)
    (t : Fin cfg0.N) (p : Fin 2000) (k : Fin 64) :
    iblk0 (F := Ideal) V c 0 t (ix2 p k) = V c main_arg3 (ix2 (rowAt t p) k) := by
  obtain ⟨e0, e1, -⟩ := index_facts t
  show V c main_arg3 (((cfg0.win 0).blk t).view.emb (ix2 p k)) = V c main_arg3 (ix2 (rowAt t p) k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * k.val = k.val; omega

/-- The W window's block at any point is W. -/
theorem wblock_apply (V : (c : Dev nD) → (b : Ref sig .tc) → Buf (Elt Ideal) ((c : Thread nD τ).loc b)) (c : Dev nD)
    (t : Fin cfg0.N) (k : Fin 64) (q : Fin 64) :
    iblk0 (F := Ideal) V c 1 t (ix2 k q) = V c main_arg4 (ix2 k q) := by
  obtain ⟨-, -, e2, e3, -⟩ := index_facts t
  show V c main_arg4 (((cfg0.win 1).blk t).view.emb (ix2 k q)) = V c main_arg4 (ix2 k q)
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The b window's block at any point is b. -/
theorem bblock_apply (V : (c : Dev nD) → (b : Ref sig .tc) → Buf (Elt Ideal) ((c : Thread nD τ).loc b)) (c : Dev nD)
    (t : Fin cfg0.N) (z : Fin 1) (q : Fin 64) :
    iblk0 (F := Ideal) V c 2 t (ix2 z q) = V c main_v25 (ix2 z q) := by
  obtain ⟨-, -, -, -, e4, e5, -⟩ := index_facts t
  show V c main_v25 (((cfg0.win 2).blk t).view.emb (ix2 z q)) = V c main_v25 (ix2 z q)
  refine congrArg _ (funext fun a => Fin.ext ?_)
  match a with
  | ⟨0, _⟩ => show win0_2.index t (0 : Fin 2) * 1 + 1 * z.val = z.val; omega
  | ⟨1, _⟩ => show win0_2.index t (1 : Fin 2) * 64 + 1 * q.val = q.val; omega

/-- Entry (p, q) of the output window's block at point `t` sits at entry (2000 t + p, q) of the array. -/
theorem oblock_emb (t : Fin cfg0.N) (p : Fin 2000) (q : Fin 64) :
    ((cfg0.win 3).blk t).view.emb (ix2 p q) = ix2 (rowAt t p) q := by
  obtain ⟨-, -, -, -, -, -, e6, e7⟩ := index_facts t
  refine funext fun a => Fin.ext ?_
  match a with
  | ⟨0, _⟩ => show win0_3.index t (0 : Fin 2) * 2000 + 1 * p.val = t.val * 2000 + p.val; omega
  | ⟨1, _⟩ => show win0_3.index t (1 : Fin 2) * 64 + 1 * q.val = q.val; omega

/-- What point `t` writes back is block `t` of x·W + b of the arrays as the region finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.affine (V c main_arg3) (V c main_arg4) (V c main_v25)) := by
  show (cfg0.win 3).cut (grid0.coords t) ((dat0 (F := Ideal) V c).after 3 t) = _
  rw [after0_3]
  unfold out0_3
  rw [View.canon_unit_zero zero_offsets]
  simp only [View.ld_unit_zero (S := S2000x64) zero_offsets, View.ld_unit_zero (S := S64x64) zero_offsets,
    View.ld_unit_zero (S := S1x64) zero_offsets]
  funext j
  obtain ⟨p, q, rfl⟩ : ∃ (p : Fin 2000) (q : Fin 64), j = ix2 p q := ⟨j 0, j 1, eq_ix2 j⟩
  show k0_pay1 (F := Ideal) (iblk0 V c 0 t) (iblk0 V c 1 t) (iblk0 V c 2 t) (ix2 p q)
    = Cert.Spec.affine (V c main_arg3) (V c main_arg4) (V c main_v25) (((cfg0.win 3).blk t).view.emb (ix2 p q))
  rw [payload_apply, oblock_emb, Cert.Spec.affine_apply, bblock_apply]
  refine congrArg (· + _) (Finset.sum_congr rfl fun k _ => ?_)
  rw [xblock_apply, wblock_apply]

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v26).slice (win0_3.rect t)).set ↔ _
  rw [View.set_slice_whole, Rect.mem_set_unit]
  exact Iff.rfl

/-- Every index of the array is in the block of the point its row divided by 2000 names. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 2000 < 50 := by omega
  obtain ⟨-, -, -, -, -, -, e6, e7⟩ := index_facts ⟨(i 0).val / 2000, ht⟩
  have e6' : win0_3.index ⟨(i 0).val / 2000, ht⟩ (0 : Fin 2) = (i 0).val / 2000 := e6
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    omega

/-- After the first kernel region, entered at the contents `V`, its output array holds x·W + b of the three arrays it
    reads as the region finds them. -/
theorem support_final (V : (c : Dev nD) → (b : Ref sig .tc) → Buf (Elt Ideal) ((c : Thread nD τ).loc b)) (c : Dev nD) :
    ((dat0 (F := Ideal) V c).arrAt 3 cfg0.N : S100000x64.Idx → EReal)
      = Cert.Spec.affine (V c main_arg3) (V c main_arg4) (V c main_v25) :=
  (dat0 (F := Ideal) V c).arrAt_eq_of_cover 3 (Cert.Spec.affine (V c main_arg3) (V c main_arg4) (V c main_v25))
    (fun t _ => flushed_eq V c t) covered

end Cert.KernelIdeal.SupportRegion

end
-- ==== Proof.ScaleRegion.lean ====
import proofs.«149163_j32229434589218_1_alg».proof.Proof.Gen.KernelIdeal.Frame
import proofs.«149163_j32229434589218_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaleRegion

open Cert.KernelIdeal Cert.KernelIdeal.Gen Idealize.ShloMosaic Idealize.ShloMosaic.TcCoe Idealize.ShloMosaic.ValueIdx Idealize.SL.Sem

/-- The body reads and writes its whole staging buffers: both offsets are zero. -/
theorem offsets_zero : (![0, 0] : Fin 2 → Nat) = fun _ => 0 := funext fun a => by fin_cases a <;> rfl

/-- A one-column array `[a, 1]` laid along the columns of `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at `(p, q)`: the coefficient of row `p` times the entry `(p, q)`. -/
theorem payload_apply (n : FVec Ideal S20000x1 .f32) (g : FVec Ideal S20000x64 .f32) (p : Fin 20000) (q : Fin 64) :
    k1_pay1 n g (ix2 p q) = n (ix2 p (0 : Fin 1)) * g (ix2 p q) := by
  show mulf (broadcastTo S20000x64 (shapeCast S20000x1 n shapeCasts_S20000x1_S20000x1) broadcasts_S20000x1_S20000x64)
      (shapeCast S20000x64 g shapeCasts_S20000x64_S20000x64) (ix2 p q) = _
  rw [mulf_apply, shapeCast_self, shapeCast_self, broadcastTo_a1_ab_apply]

/-- A block whose row `p` is row `r` of the two arrays gives, at `(p, q)`, the scaled array's entry `(r, q)`. -/
theorem block_apply (n : FVec Ideal S20000x1 .f32) (g : FVec Ideal S20000x64 .f32)
    (N : Cert.Spec.Mat 1600000 1) (G : Cert.Spec.Mat 1600000 64) (p : Fin 20000) (q : Fin 64) (r : Fin 1600000)
    (hn : n (ix2 p (0 : Fin 1)) = N (ix2 r (0 : Fin 1))) (hg : g (ix2 p q) = G (ix2 r q)) :
    k1_pay1 (F := Ideal) n g (ix2 p q) = Cert.Spec.rowScale N G (ix2 r q) := by
  rw [payload_apply, Cert.Spec.rowScale_apply, hn, hg]

/-- The three windows' block indices at point `t`, decided over the 80 points: block row `t`, block column 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled array, of the two input arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.rowScale (V c main_v34) (V c main_v33)) := by
  show (cfg1.win 2).cut (grid1.coords t) ((dat1 V c).after 2 t) = _
  rw [after1_2]
  unfold out1_2
  rw [View.canon_unit_zero offsets_zero]
  simp only [View.ld_unit_zero (S := S20000x1) offsets_zero, View.ld_unit_zero (S := S20000x64) offsets_zero]
  obtain ⟨e0, e1, e2, e3, e4, e5⟩ := index_facts t
  have ht : t.val < 80 := t.isLt
  funext j
  obtain ⟨p, q, rfl⟩ : ∃ (p : Fin 20000) (q : Fin 64), j = ix2 p q := ⟨j 0, j 1, eq_ix2 j⟩
  have hp : p.val < 20000 := p.isLt
  have hr : t.val * 20000 + p.val < 1600000 := by omega
  show k1_pay1 (iblk1 V c 0 t) (iblk1 V c 1 t) (ix2 p q)
    = Cert.Spec.rowScale (V c main_v34) (V c main_v33) (((cfg1.win 2).blk t).view.emb (ix2 p q))
  have h2 : ((cfg1.win 2).blk t).view.emb (ix2 p q) = ix2 (⟨t.val * 20000 + p.val, hr⟩ : Fin 1600000) q := by
    funext a; apply Fin.ext
    match a with
    | ⟨0, _⟩ => show win1_2.index t (0 : Fin 2) * 20000 + 1 * p.val = t.val * 20000 + p.val; omega
    | ⟨1, _⟩ => show win1_2.index t (1 : Fin 2) * 64 + 1 * q.val = q.val; omega
  rw [h2]
  refine block_apply (iblk1 V c 0 t) (iblk1 V c 1 t) _ _ p q ⟨t.val * 20000 + p.val, hr⟩ ?_ ?_
  · show V c main_v34 (((cfg1.win 0).blk t).view.emb (ix2 p (0 : Fin 1)))
      = V c main_v34 (ix2 (⟨t.val * 20000 + p.val, hr⟩ : Fin 1600000) (0 : Fin 1))
    have h0 : ((cfg1.win 0).blk t).view.emb (ix2 p (0 : Fin 1)) = ix2 (⟨t.val * 20000 + p.val, hr⟩ : Fin 1600000) (0 : Fin 1) := by
      funext a; apply Fin.ext
      match a with
      | ⟨0, _⟩ => show win1_0.index t (0 : Fin 2) * 20000 + 1 * p.val = t.val * 20000 + p.val; omega
      | ⟨1, _⟩ => show win1_0.index t (1 : Fin 2) * 1 + 1 * 0 = 0; omega
    rw [h0]
  · show V c main_v33 (((cfg1.win 1).blk t).view.emb (ix2 p q))
      = V c main_v33 (ix2 (⟨t.val * 20000 + p.val, hr⟩ : Fin 1600000) q)
    have h1 : ((cfg1.win 1).blk t).view.emb (ix2 p q) = ix2 (⟨t.val * 20000 + p.val, hr⟩ : Fin 1600000) q := by
      funext a; apply Fin.ext
      match a with
      | ⟨0, _⟩ => show win1_1.index t (0 : Fin 2) * 20000 + 1 * p.val = t.val * 20000 + p.val; omega
      | ⟨1, _⟩ => show win1_1.index t (1 : Fin 2) * 64 + 1 * q.val = q.val; omega
    rw [h1]

/-- An index of the output array is in point `t`'s block iff each coordinate is in the block's range on its axis. -/
theorem mem_blk (t : Fin cfg1.N) (i : S1600000x64.Idx) :
    i ∈ ((cfg1.win 2).blk t).view.set ↔ ∀ a : Fin 2, win1_2.index t a * S20000x64.size a ≤ (i a).val
      ∧ (i a).val < win1_2.index t a * S20000x64.size a + S20000x64.size a := by
  show i ∈ ((View.whole main_v35).slice (win1_2.rect t)).set ↔ _
  rw [View.set_slice_whole, Rect.mem_set_unit]
  exact Iff.rfl

/-- Every index of the output array is in some point's block: row `e` is in the block of point `e / 20000`. -/
theorem cover (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have ht : (i 0).val / 20000 < 80 := by omega
  obtain ⟨-, -, -, -, e4, e5⟩ := index_facts ⟨(i 0).val / 20000, ht⟩
  refine ⟨⟨(i 0).val / 20000, ht⟩, flush1_2 _, ?_⟩
  rw [mem_blk]
  intro a
  match a with
  | ⟨0, _⟩ =>
    show win1_2.index ⟨(i 0).val / 20000, ht⟩ (0 : Fin 2) * 20000 ≤ (i 0).val
      ∧ (i 0).val < win1_2.index ⟨(i 0).val / 20000, ht⟩ (0 : Fin 2) * 20000 + 20000
    rw [e4]; show (i 0).val / 20000 * 20000 ≤ (i 0).val ∧ (i 0).val < (i 0).val / 20000 * 20000 + 20000; omega
  | ⟨1, _⟩ =>
    show win1_2.index ⟨(i 0).val / 20000, ht⟩ (1 : Fin 2) * 64 ≤ (i 1).val
      ∧ (i 1).val < win1_2.index ⟨(i 0).val / 20000, ht⟩ (1 : Fin 2) * 64 + 64
    rw [e5]; omega

/-- After the second kernel region, entered at the contents `V`, its output array holds the rows of the gathered
    array scaled by the coefficient column, both as the region finds them. -/
theorem scale_final (V : (c : Dev nD) → (b : Ref sig .tc) → Buf (Elt Ideal) ((c : Thread nD τ).loc b)) (c : Dev nD) :
    ((dat1 (F := Ideal) V c).arrAt 2 cfg1.N : S1600000x64.Idx → EReal)
      = Cert.Spec.rowScale (V c main_v34) (V c main_v33) := by
  exact (dat1 (F := Ideal) V c).arrAt_eq_of_cover 2 (Cert.Spec.rowScale (V c main_v34) (V c main_v33))
    (fun t _ => flushed_eq V c t) cover

end Cert.KernelIdeal.ScaleRegion

end
-- ==== Proof.KernelWalk.lean ====
/-
  The kernel program's result, read boundary by boundary. Between the launch and the return the program's buffer
  contents pass seven boundaries: three stretches of host operations (the degree normalisation: a scatter-add of the
  edge weights into degrees, the clamp of empty rows to one, the power −1/2, two gathers and two products giving one
  coefficient per edge; and the bias cast to one row), the first kernel region (x·W + b), a stretch (the gather of the
  affine features at each edge's target node; the coefficients cast to a column), the second kernel region (each
  gathered row scaled by its edge's coefficient), and the last stretch (the scatter-add of the scaled rows into the
  edges' source rows). Each lemma names one buffer at one boundary as a function of the launch contents of the six
  arguments; the degree normalisation and the gather's start indices are carried by the reference's own stage
  functions of the same operations, never opened.
-/
import proofs.«149163_j32229434589218_1_alg».proof.Proof.Gen.KernelIdeal.Frame
import proofs.«149163_j32229434589218_1_alg».proof.Proof.Gen.ReferenceIdeal.Read
import proofs.«149163_j32229434589218_1_alg».proof.Proof.SupportRegion
import proofs.«149163_j32229434589218_1_alg».proof.Proof.ScaleRegion
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The arguments at every boundary

No host operation and no region writes an argument array, so at each boundary it holds what it held at launch. -/

theorem W2_arg0 (c : Dev nD) : W2 m ρ c (Proc.devRef .tc main_arg0) = (m ((c : Thread nD τ).loc main_arg0)) := by
  show StableHlo.after hostOps0_1 (StableHlo.after hostOps0 (W0 m ρ c)) (Proc.devRef .tc main_arg0) = _
  after_results_simp
theorem W2_arg1 (c : Dev nD) : W2 m ρ c (Proc.devRef .tc main_arg1) = (m ((c : Thread nD τ).loc main_arg1)) := by
  show StableHlo.after hostOps0_1 (StableHlo.after hostOps0 (W0 m ρ c)) (Proc.devRef .tc main_arg1) = _
  after_results_simp
theorem W2_arg2 (c : Dev nD) : W2 m ρ c (Proc.devRef .tc main_arg2) = (m ((c : Thread nD τ).loc main_arg2)) := by
  show StableHlo.after hostOps0_1 (StableHlo.after hostOps0 (W0 m ρ c)) (Proc.devRef .tc main_arg2) = _
  after_results_simp

theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp
theorem W3_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp

/-! ## The degree normalisation, stage by stage

The first stretch sums the edge weights into their source rows (the degrees), tests them against zero and makes
the all-ones array; the `where` picks the degree where it is positive and one elsewhere; the third stretch raises
that to the power −1/2, gathers it at both ends of every edge and multiplies the edge weight by the two. Each stage
is the reference's stage of the same name, on the launch contents of the arguments. -/

theorem W1_degree (c : Dev nD) : W1 m ρ c (Proc.devRef .tc main_v2)
    = Cert.ReferenceIdeal.Read.val_main_v2 (F := Ideal) (m ((c : Thread nD τ).loc main_arg0)) (m ((c : Thread nD τ).loc main_arg2)) := by
  show StableHlo.after hostOps0 (W0 m ρ c) (Proc.devRef .tc main_v2) = _
  after_results_simp
  rfl

theorem W1_positive (c : Dev nD) : W1 m ρ c (Proc.devRef .tc main_v4)
    = Cert.ReferenceIdeal.Read.val_main_v4 (F := Ideal) (m ((c : Thread nD τ).loc main_arg0)) (m ((c : Thread nD τ).loc main_arg2)) := by
  show StableHlo.after hostOps0 (W0 m ρ c) (Proc.devRef .tc main_v4) = _
  after_results_simp
  rfl

theorem W1_ones (c : Dev nD) : W1 m ρ c (Proc.devRef .tc main_v5)
    = Cert.ReferenceIdeal.Read.val_main_v5 (F := Ideal) := by
  show StableHlo.after hostOps0 (W0 m ρ c) (Proc.devRef .tc main_v5) = _
  after_results_simp
  rfl

/-- The `where` at any contents: the select of the three buffers it reads. -/
theorem where_result (X : Valuation τ sig (Elt Ideal)) :
    StableHlo.after hostOps0_1 X (Proc.devRef .tc main_v6)
      = select (X (Proc.devRef .tc main_v4)) (X (Proc.devRef .tc main_v2)) (X (Proc.devRef .tc main_v5)) := by
  after_results_simp
  rfl

theorem W2_clamped (c : Dev nD) : W2 m ρ c (Proc.devRef .tc main_v6)
    = Cert.ReferenceIdeal.Read.val_main_v6 (F := Ideal) (m ((c : Thread nD τ).loc main_arg0)) (m ((c : Thread nD τ).loc main_arg2)) := by
  show StableHlo.after hostOps0_1 (W1 m ρ c) (Proc.devRef .tc main_v6) = _
  rw [where_result, W1_positive, W1_degree, W1_ones]
  rfl

/-- The edge coefficients when region 0 is entered: the reference's `norm_vals` stage. -/
theorem W3_coeff (c : Dev nD) : W3 m ρ c (Proc.devRef .tc main_v24)
    = Cert.ReferenceIdeal.Read.val_main_v24 (F := Ideal) (m ((c : Thread nD τ).loc main_arg0)) (m ((c : Thread nD τ).loc main_arg1)) (m ((c : Thread nD τ).loc main_arg2)) := by
  show StableHlo.after hostOps0_2 (W2 m ρ c) (Proc.devRef .tc main_v24) = _
  generalize hX : W2 m ρ c = X
  after_results_simp
  subst hX
  rw [W2_clamped, W2_arg0, W2_arg1, W2_arg2]
  rfl

/-- The bias as region 0 finds it: the vector cast to one row. -/
theorem W3_bias (c : Dev nD) : W3 m ρ c (Proc.devRef .tc main_v25)
    = shapeCast S1x64 (m ((c : Thread nD τ).loc main_arg5)) shapeCasts_S64_S1x64 := by
  show StableHlo.after hostOps0_2 (StableHlo.after hostOps0_1 (StableHlo.after hostOps0 (W0 m ρ c))) (Proc.devRef .tc main_v25) = _
  after_results_simp
  rfl

/-! ## Region 0: the affine map -/

/-- The node features after region 0: x·W + b of the launch contents, the bias cast to one row. -/
theorem W4_support (c : Dev nD) : (W4 m ρ c (Proc.devRef .tc main_v26) : S100000x64.Idx → EReal)
    = Cert.Spec.affine (m ((c : Thread nD τ).loc main_arg3)) (m ((c : Thread nD τ).loc main_arg4)) (shapeCast S1x64 (m ((c : Thread nD τ).loc main_arg5)) shapeCasts_S64_S1x64) := by
  have h := Cert.KernelIdeal.SupportRegion.support_final (V3 m ρ) c
  rw [show V3 m ρ c main_arg3 = (m ((c : Thread nD τ).loc main_arg3)) from W3_arg3 m ρ c, show V3 m ρ c main_arg4 = (m ((c : Thread nD τ).loc main_arg4)) from W3_arg4 m ρ c,
    show V3 m ρ c main_v25 = shapeCast S1x64 (m ((c : Thread nD τ).loc main_arg5)) shapeCasts_S64_S1x64 from W3_bias m ρ c] at h
  exact (W4_arr m ρ c 3).trans h

theorem W4_coeff (c : Dev nD) : W4 m ρ c (Proc.devRef .tc main_v24)
    = Cert.ReferenceIdeal.Read.val_main_v24 (F := Ideal) (m ((c : Thread nD τ).loc main_arg0)) (m ((c : Thread nD τ).loc main_arg1)) (m ((c : Thread nD τ).loc main_arg2)) :=
  (W4_of_ne m ρ c main_v24 (by decide)).trans (W3_coeff m ρ c)

theorem W4_arg0 (c : Dev nD) : W4 m ρ c (Proc.devRef .tc main_arg0) = (m ((c : Thread nD τ).loc main_arg0)) :=
  (W4_of_ne m ρ c main_arg0 (by decide)).trans (W3_arg0 m ρ c)

theorem W4_arg1 (c : Dev nD) : W4 m ρ c (Proc.devRef .tc main_arg1) = (m ((c : Thread nD τ).loc main_arg1)) :=
  (W4_of_ne m ρ c main_arg1 (by decide)).trans (W3_arg1 m ρ c)

/-! ## The stretch between the regions: the gather at the edges' target nodes, the coefficients as a column -/

theorem W5_gathered (c : Dev nD) : W5 m ρ c (Proc.devRef .tc main_v33)
    = Host.gather gather_S100000x64_S1600000x1_S1600000x64_1_0_n_n_0_1_164 (W4 m ρ c (Proc.devRef .tc main_v26))
        (Cert.ReferenceIdeal.Read.val_main_v35 (F := Ideal) (m ((c : Thread nD τ).loc main_arg1))) := by
  show StableHlo.after hostOps1 (W4 m ρ c) (Proc.devRef .tc main_v33) = _
  generalize hX : W4 m ρ c = X
  after_results_simp
  subst hX
  rw [W4_arg1]
  rfl

theorem W5_column (c : Dev nD) : W5 m ρ c (Proc.devRef .tc main_v34)
    = shapeCast S1600000x1 (Cert.ReferenceIdeal.Read.val_main_v24 (F := Ideal) (m ((c : Thread nD τ).loc main_arg0)) (m ((c : Thread nD τ).loc main_arg1)) (m ((c : Thread nD τ).loc main_arg2))) shapeCasts_S1600000_S1600000x1 := by
  show StableHlo.after hostOps1 (W4 m ρ c) (Proc.devRef .tc main_v34) = _
  generalize hX : W4 m ρ c = X
  after_results_simp
  subst hX
  rw [W4_coeff]
  rfl

theorem W5_arg0 (c : Dev nD) : W5 m ρ c (Proc.devRef .tc main_arg0) = (m ((c : Thread nD τ).loc main_arg0)) := by
  show StableHlo.after hostOps1 (W4 m ρ c) (Proc.devRef .tc main_arg0) = _
  generalize hX : W4 m ρ c = X
  after_results_simp
  subst hX
  exact W4_arg0 m ρ c

/-! ## Region 1: the row scaling -/

theorem W6_weighted (c : Dev nD) : (W6 m ρ c (Proc.devRef .tc main_v35) : S1600000x64.Idx → EReal)
    = Cert.Spec.rowScale
        (shapeCast S1600000x1 (Cert.ReferenceIdeal.Read.val_main_v24 (F := Ideal) (m ((c : Thread nD τ).loc main_arg0)) (m ((c : Thread nD τ).loc main_arg1)) (m ((c : Thread nD τ).loc main_arg2))) shapeCasts_S1600000_S1600000x1)
        (Host.gather gather_S100000x64_S1600000x1_S1600000x64_1_0_n_n_0_1_164
          (Cert.Spec.affine (m ((c : Thread nD τ).loc main_arg3)) (m ((c : Thread nD τ).loc main_arg4)) (shapeCast S1x64 (m ((c : Thread nD τ).loc main_arg5)) shapeCasts_S64_S1x64))
          (Cert.ReferenceIdeal.Read.val_main_v35 (F := Ideal) (m ((c : Thread nD τ).loc main_arg1)))) := by
  have h := Cert.KernelIdeal.ScaleRegion.scale_final (V5 m ρ) c
  rw [show V5 m ρ c main_v34 = _ from W5_column m ρ c, show V5 m ρ c main_v33 = _ from W5_gathered m ρ c] at h
  rw [W4_support] at h
  exact (W6_arr m ρ c 2).trans h

theorem W6_arg0 (c : Dev nD) : W6 m ρ c (Proc.devRef .tc main_arg0) = (m ((c : Thread nD τ).loc main_arg0)) :=
  (W6_of_ne m ρ c main_arg0 (by decide)).trans (W5_arg0 m ρ c)

/-! ## The last stretch: the scatter-add into the edges' source rows -/

/-- THE RESULT at the last boundary: the weighted edge features summed into their source rows. -/
theorem W7_result (c : Dev nD) : W7 m ρ c (Proc.devRef .tc main_v38)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (m ((c : Thread nD τ).loc main_arg0)))
        (Cert.Spec.rowScale
          (shapeCast S1600000x1 (Cert.ReferenceIdeal.Read.val_main_v24 (F := Ideal) (m ((c : Thread nD τ).loc main_arg0)) (m ((c : Thread nD τ).loc main_arg1)) (m ((c : Thread nD τ).loc main_arg2))) shapeCasts_S1600000_S1600000x1)
          (Host.gather gather_S100000x64_S1600000x1_S1600000x64_1_0_n_n_0_1_164
            (Cert.Spec.affine (m ((c : Thread nD τ).loc main_arg3)) (m ((c : Thread nD τ).loc main_arg4)) (shapeCast S1x64 (m ((c : Thread nD τ).loc main_arg5)) shapeCasts_S64_S1x64))
            (Cert.ReferenceIdeal.Read.val_main_v35 (F := Ideal) (m ((c : Thread nD τ).loc main_arg1))))) := by
  show StableHlo.after hostOps2 (W6 m ρ c) (Proc.devRef .tc main_v38) = _
  generalize hX : W6 m ρ c = X
  after_results_simp
  subst hX
  rw [W6_arg0]
  exact congrArg _ (W6_weighted m ρ c)

end Cert.KernelIdeal.Walk
end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.RefSide.lean ====
/-
  The reference's two dense stages are the specification's functions: its `x @ W + b` (a dot_general, the bias
  broadcast in two steps and an add) is the affine map, entry by entry the same sum over the contracted axis plus the
  same bias entry; and its `norm_vals[:, None] * support[cols]` (the coefficients broadcast to a column and then along
  the rows, and a multiply) is the row scaling. No law of the extended reals is needed beyond reading each side at an
  index: both sides add and multiply the same entries in the same order.
-/
import proofs.«149163_j32229434589218_1_alg».proof.Proof.Gen.ReferenceIdeal.Read
import proofs.«149163_j32229434589218_1_alg».proof.Proof.Spec
import proofs.«149163_j32229434589218_1_alg».proof.Proof.LibBiasRow
import proofs.«149163_j32229434589218_1_alg».proof.Proof.LibKeepdims
import Idealize.ShloMosaic.Lib.ValueIdx
import Idealize.ShloMosaic.Lib.Pipeline.Value

noncomputable section

namespace Cert.ReferenceIdeal.Bridge

open Cert.ReferenceIdeal Cert.ReferenceIdeal.Gen Cert.ReferenceIdeal.Read Idealize.ShloMosaic Idealize.ShloMosaic.ValueIdx

/-- The bias stage at entry (p, q): the bias vector at q. -/
theorem bias_apply (x5 : FVec Ideal S64 .f32) (p : Fin 100000) (q : Fin 64) :
    val_main_v27 (F := Ideal) x5 (ix2 p q) = x5 (ix1 q) := by
  unfold val_main_v27 val_main_v26
  exact Cert.BiasRow.inDimRows_apply x5 bcast_S64_S1x64_1 bcast_S1x64_S100000x64_0_1 p q

/-- The reference's `x @ W + b` is the affine map of x, W and the bias cast to one row. -/
theorem support_eq (x3 : FVec Ideal S100000x64 .f32) (x4 : FVec Ideal S64x64 .f32) (x5 : FVec Ideal S64 .f32)
    (h1 : S64.ShapeCasts S1x64) :
    (val_main_v28 (F := Ideal) x3 x4 x5 : S100000x64.Idx → EReal) = Cert.Spec.affine x3 x4 (shapeCast S1x64 x5 h1) := by
  funext i
  obtain ⟨p, q, rfl⟩ : ∃ (p : Fin 100000) (q : Fin 64), i = ix2 p q := ⟨i 0, i 1, eq_ix2 i⟩
  rw [val_main_v28_apply, val_main_v25_apply, bias_apply, Cert.Spec.affine_apply, Cert.BiasRow.oneRow_cast_apply]
  have el : ∀ k : Fin 64, lidx_main_v25 (ix2 p q) k = ix2 p k := fun k => funext fun a => Fin.ext (by
    match a with
    | ⟨0, _⟩ => rfl
    | ⟨1, _⟩ => rfl)
  have er : ∀ k : Fin 64, ridx_main_v25 (ix2 p q) k = ix2 k q := fun k => funext fun a => Fin.ext (by
    match a with
    | ⟨0, _⟩ => rfl
    | ⟨1, _⟩ => rfl)
  simp only [el, er]
  rfl

/-- The reference's coefficient-times-gathered product is the row scaling by the coefficients cast to a column. -/
theorem weighted_eq (x0 x1 : IVec S1600000 32) (x2 : FVec Ideal S1600000 .f32) (G : FVec Ideal S1600000x64 .f32)
    (h1 : S1600000.ShapeCasts S1600000x1) :
    (mulf (val_main_v37 (F := Ideal) x0 x1 x2) G : S1600000x64.Idx → EReal)
      = Cert.Spec.rowScale (shapeCast S1600000x1 (val_main_v24 (F := Ideal) x0 x1 x2) h1) G := by
  funext i
  obtain ⟨e, j, rfl⟩ : ∃ (e : Fin 1600000) (j : Fin 64), i = ix2 e j := ⟨i 0, i 1, eq_ix2 i⟩
  rw [mulf_apply, val_main_v37_apply, val_main_v29_apply, Cert.Spec.rowScale_apply, Cert.Keepdims.shapeCast_a_a1_apply]
  have ei : idx_main_v29 (idx_main_v37 (ix2 e j)) = ix1 e := funext fun a => Fin.ext (by
    match a with
    | ⟨0, _⟩ => rfl)
  rw [ei]

/-- THE REFERENCE'S RESULT over the specification's two functions: the scatter-add, into the edges' source rows, of the
    gathered affine features scaled by the edge coefficients. -/
theorem result_eq (x0 x1 : IVec S1600000 32) (x2 : FVec Ideal S1600000 .f32) (x3 : FVec Ideal S100000x64 .f32)
    (x4 : FVec Ideal S64x64 .f32) (x5 : FVec Ideal S64 .f32)
    (hc : S1600000.ShapeCasts S1600000x1) (hb : S64.ShapeCasts S1x64) :
    val_main_v41 (F := Ideal) x0 x1 x2 x3 x4 x5
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 x0)
          (Cert.Spec.rowScale (shapeCast S1600000x1 (val_main_v24 (F := Ideal) x0 x1 x2) hc)
            (Host.gather gather_S100000x64_S1600000x1_S1600000x64_1_0_n_n_0_1_164
              (Cert.Spec.affine x3 x4 (shapeCast S1x64 x5 hb)) (val_main_v35 (F := Ideal) x1))) := by
  unfold val_main_v41 val_main_v38 val_main_v36
  rw [support_eq x3 x4 x5 hb, weighted_eq x0 x1 x2 _ hc]
  rfl

end Cert.ReferenceIdeal.Bridge

end
-- ==== Proof.lean ====
/-
  A graph-convolution layer, out = D^(-1/2) A D^(-1/2) (x W + b) over an edge list: the kernel program computes the
  dense product x·W + b and the scaling of the gathered rows by the edge coefficients in two kernel regions and leaves
  the degree normalisation, the gather and the final scatter-add to host operations; the reference does all of it in
  host operations. On the extended reals the two are the same function of the six arguments: the degree
  normalisation, the gather and the scatter-add are the same operations on both sides; the first region's blocks tile
  the node features and each holds the sums over the contracted axis plus the bias, which is what the reference's
  dot_general and broadcast add hold; the second region's blocks tile the edges and each entry is its row's
  coefficient times the gathered entry, which is what the reference's broadcast multiply holds. No finiteness is used:
  both sides add and multiply the same entries in the same order.

  The three frames: the two kernel programs' are the generated frame certificates; the reference's is its generated
  run with the result dropped. `preserves` is trivial (the idealization rewrote nothing). `algebraic`: the kernel
  program's run with its result named at the last boundary's contents (RunValue), those contents as a function of the
  launch contents (KernelWalk, over the two regions' whole-array values SupportRegion and ScaleRegion), and the
  reference's run read through its stages (RefSide), both stated over the specification's two functions (Spec).
-/
import proofs.«149163_j32229434589218_1_alg».proof.Defs
import proofs.«149163_j32229434589218_1_alg».proof.Proof.Gen.Kernel
import proofs.«149163_j32229434589218_1_alg».proof.Proof.Gen.Kernel.Frame
import proofs.«149163_j32229434589218_1_alg».proof.Proof.Gen.KernelIdeal
import proofs.«149163_j32229434589218_1_alg».proof.Proof.Gen.KernelIdeal.Frame
import proofs.«149163_j32229434589218_1_alg».proof.Proof.Gen.ReferenceIdeal
import proofs.«149163_j32229434589218_1_alg».proof.Proof.Gen.ReferenceIdeal.Run
import proofs.«149163_j32229434589218_1_alg».proof.Proof.Gen.ReferenceIdeal.Read
import proofs.«149163_j32229434589218_1_alg».proof.Proof.Gen.Pre_finite_inputs
import proofs.«149163_j32229434589218_1_alg».proof.Proof.RunValue
import proofs.«149163_j32229434589218_1_alg».proof.Proof.KernelWalk
import proofs.«149163_j32229434589218_1_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scatter-add, into the edges' source rows, of the gathered affine features scaled by the
    edge coefficients, of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v38),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  show _ = Cert.KernelIdeal.Gen.W7 m ρ c (Proc.devRef .tc Cert.KernelIdeal.main_v38)
  rw [Cert.ReferenceIdeal.Read.val_main_v41_eq,
    Cert.ReferenceIdeal.Bridge.result_eq _ _ _ _ _ _ Cert.KernelIdeal.Gen.shapeCasts_S1600000_S1600000x1
      Cert.KernelIdeal.Gen.shapeCasts_S64_S1x64,
    e0, e1, e2, e3, e4, e5, Cert.KernelIdeal.Walk.W7_result m ρ c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
